-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S64x512 : Shape := ⟨2, ![64, 512]⟩
abbrev S100000x256 : Shape := ⟨2, ![100000, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_arg1 : IVec S64x512 32) (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 4294867296#32
  let main_v24 : IVec S64x512 32 := broadcastInDim S64x512 ![] bcast_S_S64x512 main_c_8
  let main_v25 : IVec S64x512 1 := cmpi .sge main_arg1 main_v24
  let main_c_9 : IVec S_ 32 := constantI S_ 32 100000#32
  let main_v26 : IVec S64x512 32 := broadcastInDim S64x512 ![] bcast_S_S64x512 main_c_9
  let main_v27 : IVec S64x512 1 := cmpi .slt main_arg1 main_v26
  let main_v28 : IVec S64x512 1 := andi main_v25 main_v27
  let main_c_10 : IVec S_ 1 := constantI S_ 1 1#1
  let main_v29 : IVec S_ 1 := (fun x v => Host.reduce IntOp.andi x v reducesTo_S64x512_S_d0_1 h_S_) main_v28 main_c_10
  let main_v30 : IVec S_ 1 := andi main_v23 main_v29
  main_v30

def fn {F : FTy → Type} [FloatOps F] (main_arg0 : FVec F S64x512x512 .f32) (main_arg1 : IVec S64x512 32) (main_arg2 : FVec F S100000x256 .f32) (main_arg3 : FVec F S256 .f32) (main_arg4 : FVec F S256x128 .f32) (main_arg5 : FVec F S128 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S100000x256 .f32 := Host.absf main_arg2
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg5 main_v13 main_v16
-- ==== Kernel.lean ====
abbrev S64x512x512 : Shape := ⟨3, ![64, 512, 512]⟩
abbrev S64x512 : Shape := ⟨2, ![64, 512]⟩
abbrev S100000x256 : Shape := ⟨2, ![100000, 256]⟩
abbrev S256 : Shape := ⟨1, ![256]⟩
abbrev S256x128 : Shape := ⟨2, ![256, 128]⟩
abbrev S128 : Shape := ⟨1, ![128]⟩
abbrev S_ : Shape := ⟨0, ![]⟩
abbrev S64x512x1 : Shape := ⟨3, ![64, 512, 1]⟩
abbrev S1 : Shape := ⟨1, ![1]⟩
abbrev S1x1x1 : Shape := ⟨3, ![1, 1, 1]⟩
abbrev S64x512x256 : Shape := ⟨3, ![64, 512, 256]⟩
abbrev S1x1x256 : Shape := ⟨3, ![1, 1, 256]⟩
abbrev S1x128 : Shape := ⟨2, ![1, 128]⟩
abbrev S64x128 : Shape := ⟨2, ![64, 128]⟩
abbrev S8x512x512 : Shape := ⟨3, ![8, 512, 512]⟩
abbrev S8x512x256 : Shape := ⟨3, ![8, 512, 256]⟩
abbrev S8x128 : Shape := ⟨2, ![8, 128]⟩
abbrev S1x512x512 : Shape := ⟨3, ![1, 512, 512]⟩
abbrev S512x512 : Shape := ⟨2, ![512, 512]⟩
abbrev S1x512x256 : Shape := ⟨3, ![1, 512, 256]⟩
abbrev S512x256 : Shape := ⟨2, ![512, 256]⟩
abbrev S512x128 : Shape := ⟨2, ![512, 128]⟩

abbrev nBuf : Space → Nat
  | .hbm => 34
  | .vmem => 8
  | .smem => 0
  | _ => 0

abbrev bufTy : (tb : Table) → Fin (tcTables nBuf tb) → BufTy
  | .hbm, ⟨0, _⟩ => ⟨S64x512x512, .f32⟩
  | .hbm, ⟨1, _⟩ => ⟨S64x512, .i32⟩
  | .hbm, ⟨2, _⟩ => ⟨S100000x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S_, .i32⟩
  | .hbm, ⟨7, _⟩ => ⟨S64x512, .i32⟩
  | .hbm, ⟨8, _⟩ => ⟨S64x512, .i1⟩
  | .hbm, ⟨9, _⟩ => ⟨S_, .i32⟩
  | .hbm, ⟨10, _⟩ => ⟨S64x512, .i32⟩
  | .hbm, ⟨11, _⟩ => ⟨S64x512, .i32⟩
  | .hbm, ⟨12, _⟩ => ⟨S64x512, .i32⟩
  | .hbm, ⟨13, _⟩ => ⟨S64x512x1, .i32⟩
  | .hbm, ⟨14, _⟩ => ⟨S1, .i32⟩
  | .hbm, ⟨15, _⟩ => ⟨S_, .i32⟩
  | .hbm, ⟨16, _⟩ => ⟨S64x512x1, .i32⟩
  | .hbm, ⟨17, _⟩ => ⟨S64x512x1, .i1⟩
  | .hbm, ⟨18, _⟩ => ⟨S1x1x1, .i32⟩
  | .hbm, ⟨19, _⟩ => ⟨S64x512x1, .i32⟩
  | .hbm, ⟨20, _⟩ => ⟨S64x512x1, .i1⟩
  | .hbm, ⟨21, _⟩ => ⟨S64x512x1, .i1⟩
  | .hbm, ⟨22, _⟩ => ⟨S_, .i1⟩
  | .hbm, ⟨23, _⟩ => ⟨S64x512, .i1⟩
  | .hbm, ⟨24, _⟩ => ⟨S64x512x256, .f32⟩
  | .hbm, ⟨25, _⟩ => ⟨S64x512x256, .i1⟩
  | .hbm, ⟨26, _⟩ => ⟨S_, .f32⟩
  | .hbm, ⟨27, _⟩ => ⟨S64x512x256, .f32⟩
  | .hbm, ⟨28, _⟩ => ⟨S64x512x256, .f32⟩
  | .hbm, ⟨29, _⟩ => ⟨S1x1x256, .f32⟩
  | .hbm, ⟨30, _⟩ => ⟨S64x512x256, .f32⟩
  | .hbm, ⟨31, _⟩ => ⟨S64x512x256, .f32⟩
  | .hbm, ⟨32, _⟩ => ⟨S1x128, .f32⟩
  | .hbm, ⟨33, _⟩ => ⟨S64x128, .f32⟩
  | .local _ .vmem, ⟨0, _⟩ => ⟨S8x512x512, .f32⟩
  | .local _ .vmem, ⟨1, _⟩ => ⟨S8x512x512, .f32⟩
  | .local _ .vmem, ⟨2, _⟩ => ⟨S8x512x256, .f32⟩
  | .local _ .vmem, ⟨3, _⟩ => ⟨S8x512x256, .f32⟩
  | .local _ .vmem, ⟨4, _⟩ => ⟨S256x128, .f32⟩
  | .local _ .vmem, ⟨5, _⟩ => ⟨S1x128, .f32⟩
  | .local _ .vmem, ⟨6, _⟩ => ⟨S8x128, .f32⟩
  | .local _ .vmem, ⟨7, _⟩ => ⟨S8x128, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S1_S1x1x1_2 : S1.BroadcastsInDim S1x1x1 (![2] : Fin 1 → Fin S1x1x1.rank)
  bcast_S1x1x1_S64x512x1_0_1_2 : S1x1x1.BroadcastsInDim S64x512x1 (![0, 1, 2] : Fin 3 → Fin S64x512x1.rank)
  reducesTo_S64x512x1_S64x512_d2 : S64x512x1.ReducesTo [2] S64x512
  h_S_ : 0 < S_.numel
  bcast_S64x512_S64x512x256_0_1 : S64x512.BroadcastsInDim S64x512x256 (![0, 1] : Fin 2 → Fin S64x512x256.rank)
  bcast_S_S64x512x256 : S_.BroadcastsInDim S64x512x256 (![] : Fin 0 → Fin S64x512x256.rank)
  bcast_S256_S1x1x256_2 : S256.BroadcastsInDim S1x1x256 (![2] : Fin 1 → Fin S1x1x256.rank)
  bcast_S1x1x256_S64x512x256_0_1_2 : S1x1x256.BroadcastsInDim S64x512x256 (![0, 1, 2] : Fin 3 → Fin S64x512x256.rank)
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8x512x512_S1x512x512_0_0_0 : ∀ a, (![0, 0, 0] : Fin 3 → Nat) a + S1x512x512.size a ≤ S8x512x512.size a
  h_S1x512x512 : 0 < S1x512x512.numel
  shapeCasts_S1x512x512_S512x512 : S1x512x512.ShapeCasts S512x512
  inb_S8x512x256_S1x512x256_0_0_0 : ∀ a, (![0, 0, 0] : Fin 3 → Nat) a + S1x512x256.size a ≤ S8x512x256.size a
  h_S1x512x256 : 0 < S1x512x256.numel
  shapeCasts_S1x512x256_S512x256 : S1x512x256.ShapeCasts S512x256
  broadcasts_S1x128_S512x128 : S1x128.Broadcasts S512x128
  reduces_S512x128_S128 : S512x128.Reduces [0] S128
  inb_S8x128_S1x128_0_0 : ∀ a, (![0, 0] : Fin 2 → Nat) a + S1x128.size a ≤ S8x128.size a
  shapeCasts_S1x128_S128 : S1x128.ShapeCasts S128
  inb_S8x512x512_S1x512x512_1_0_0 : ∀ a, (![1, 0, 0] : Fin 3 → Nat) a + S1x512x512.size a ≤ S8x512x512.size a
  inb_S8x512x256_S1x512x256_1_0_0 : ∀ a, (![1, 0, 0] : Fin 3 → Nat) a + S1x512x256.size a ≤ S8x512x256.size a
  inb_S8x128_S1x128_1_0 : ∀ a, (![1, 0] : Fin 2 → Nat) a + S1x128.size a ≤ S8x128.size a
  inb_S8x512x512_S1x512x512_2_0_0 : ∀ a, (![2, 0, 0] : Fin 3 → Nat) a + S1x512x512.size a ≤ S8x512x512.size a
  inb_S8x512x256_S1x512x256_2_0_0 : ∀ a, (![2, 0, 0] : Fin 3 → Nat) a + S1x512x256.size a ≤ S8x512x256.size a
  inb_S8x128_S1x128_2_0 : ∀ a, (![2, 0] : Fin 2 → Nat) a + S1x128.size a ≤ S8x128.size a
  inb_S8x512x512_S1x512x512_3_0_0 : ∀ a, (![3, 0, 0] : Fin 3 → Nat) a + S1x512x512.size a ≤ S8x512x512.size a
  inb_S8x512x256_S1x512x256_3_0_0 : ∀ a, (![3, 0, 0] : Fin 3 → Nat) a + S1x512x256.size a ≤ S8x512x256.size a
  inb_S8x128_S1x128_3_0 : ∀ a, (![3, 0] : Fin 2 → Nat) a + S1x128.size a ≤ S8x128.size a
  inb_S8x512x512_S1x512x512_4_0_0 : ∀ a, (![4, 0, 0] : Fin 3 → Nat) a + S1x512x512.size a ≤ S8x512x512.size a
  inb_S8x512x256_S1x512x256_4_0_0 : ∀ a, (![4, 0, 0] : Fin 3 → Nat) a + S1x512x256.size a ≤ S8x512x256.size a
  inb_S8x128_S1x128_4_0 : ∀ a, (![4, 0] : Fin 2 → Nat) a + S1x128.size a ≤ S8x128.size a
  inb_S8x512x512_S1x512x512_5_0_0 : ∀ a, (![5, 0, 0] : Fin 3 → Nat) a + S1x512x512.size a ≤ S8x512x512.size a
  inb_S8x512x256_S1x512x256_5_0_0 : ∀ a, (![5, 0, 0] : Fin 3 → Nat) a + S1x512x256.size a ≤ S8x512x256.size a
  inb_S8x128_S1x128_5_0 : ∀ a, (![5, 0] : Fin 2 → Nat) a + S1x128.size a ≤ S8x128.size a
  inb_S8x512x512_S1x512x512_6_0_0 : ∀ a, (![6, 0, 0] : Fin 3 → Nat) a + S1x512x512.size a ≤ S8x512x512.size a
  inb_S8x512x256_S1x512x256_6_0_0 : ∀ a, (![6, 0, 0] : Fin 3 → Nat) a + S1x512x256.size a ≤ S8x512x256.size a
  inb_S8x128_S1x128_6_0 : ∀ a, (![6, 0] : Fin 2 → Nat) a + S1x128.size a ≤ S8x128.size a
  inb_S8x512x512_S1x512x512_7_0_0 : ∀ a, (![7, 0, 0] : Fin 3 → Nat) a + S1x512x512.size a ≤ S8x512x512.size a
  inb_S8x512x256_S1x512x256_7_0_0 : ∀ a, (![7, 0, 0] : Fin 3 → Nat) a + S1x512x256.size a ≤ S8x512x256.size a
  inb_S8x128_S1x128_7_0 : ∀ a, (![7, 0] : Fin 2 → Nat) a + S1x128.size a ≤ S8x128.size a
  gather_S100000x256_S64x512x1_S64x512x256_2_0_n_n_0_2_1256_wf : GatherDims.WF S100000x256 S64x512x1 S64x512x256 [2] [0] [] [0] [] 2 ![1, 256]
  dot_S512x512_S512x256_S512x256_1_0_0_1_n_n_wf : DotDims.WF S512x512 S512x256 S512x256 [1] [0] [0] [1] [] []
  dot_S512x256_S256x128_S512x128_1_0_0_1_n_n_wf : DotDims.WF S512x256 S256x128 S512x128 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S64x512x512.size a
  hwx0_0 : ∀ i : grid0.Coords, EltTy.bits .f32 = 32 ∨ (Rect.block (s := S64x512x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x256.size a ≤ S64x512x256.size a
  hwx0_1 : ∀ i : grid0.Coords, EltTy.bits .f32 = 32 ∨ (Rect.block (s := S64x512x256) S8x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S64x128.size a
  hwx0_4 : ∀ i : grid0.Coords, EltTy.bits .f32 = 32 ∨ (Rect.block (s := S64x128) S8x128.size (cc0_transform_4 i) (hinb0_4 i)).WholeWords (EltTy.packing .f32)

variable [Facts₀]

def gather_S100000x256_S64x512x1_S64x512x256_2_0_n_n_0_2_1256 : GatherDims S100000x256 S64x512x1 S64x512x256 where
  offsetDims := [2]
  collapsedSliceDims := [0]
  operandBatchingDims := []
  startIndicesBatchingDims := []
  startIndexMap := [0]
  indexVectorDim := 2
  sliceSizes := ![1, 256]
  wf := gather_S100000x256_S64x512x1_S64x512x256_2_0_n_n_0_2_1256_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_arg0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S64x512 : Shape := ⟨2, ![64, 512]⟩
abbrev S100000x256 : Shape := ⟨2, ![100000, 256]⟩
abbrev S256 : Shape := ⟨1, ![256]⟩
abbrev S256x128 : Shape := ⟨2, ![256, 128]⟩
abbrev S128 : Shape := ⟨1, ![128]⟩
abbrev S_ : Shape := ⟨0, ![]⟩
abbrev S64x512x1 : Shape := ⟨3, ![64, 512, 1]⟩
abbrev S64x512x256 : Shape := ⟨3, ![64, 512, 256]⟩
abbrev S1x1x256 : Shape := ⟨3, ![1, 1, 256]⟩
abbrev S64x512x128 : Shape := ⟨3, ![64, 512, 128]⟩
abbrev S1x1x128 : Shape := ⟨3, ![1, 1, 128]⟩
abbrev S64x128 : Shape := ⟨2, ![64, 128]⟩

abbrev nBuf : Space → Nat
  | .hbm => 35
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S64x512, .i32⟩
  | .hbm, ⟨2, _⟩ => ⟨S100000x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S_, .i32⟩
  | .hbm, ⟨7, _⟩ => ⟨S64x512, .i32⟩
  | .hbm, ⟨8, _⟩ => ⟨S64x512, .i1⟩
  | .hbm, ⟨9, _⟩ => ⟨S_, .i32⟩
  | .hbm, ⟨10, _⟩ => ⟨S64x512, .i32⟩
  | .hbm, ⟨11, _⟩ => ⟨S64x512, .i32⟩
  | .hbm, ⟨12, _⟩ => ⟨S64x512, .i32⟩
  | .hbm, ⟨13, _⟩ => ⟨S64x512x1, .i32⟩
  | .hbm, ⟨14, _⟩ => ⟨S64x512x256, .f32⟩
  | .hbm, ⟨15, _⟩ => ⟨S1x1x256, .f32⟩
  | .hbm, ⟨16, _⟩ => ⟨S64x512x256, .f32⟩
  | .hbm, ⟨17, _⟩ => ⟨S64x512x256, .f32⟩
  | .hbm, ⟨18, _⟩ => ⟨S64x512x256, .f32⟩
  | .hbm, ⟨19, _⟩ => ⟨S_, .f32⟩
  | .hbm, ⟨20, _⟩ => ⟨S64x512x256, .f32⟩
  | .hbm, ⟨21, _⟩ => ⟨S64x512x256, .f32⟩
  | .hbm, ⟨22, _⟩ => ⟨S64x512x128, .f32⟩
  | .hbm, ⟨23, _⟩ => ⟨S1x1x128, .f32⟩
  | .hbm, ⟨24, _⟩ => ⟨S64x512x128, .f32⟩
  | .hbm, ⟨25, _⟩ => ⟨S64x512x128, .f32⟩
  | .hbm, ⟨26, _⟩ => ⟨S64x512x128, .f32⟩
  | .hbm, ⟨27, _⟩ => ⟨S_, .f32⟩
  | .hbm, ⟨28, _⟩ => ⟨S64x512x128, .f32⟩
  | .hbm, ⟨29, _⟩ => ⟨S64x512x128, .f32⟩
  | .hbm, ⟨30, _⟩ => ⟨S_, .f32⟩
  | .hbm, ⟨31, _⟩ => ⟨S64x128, .f32⟩
  | .hbm, ⟨32, _⟩ => ⟨S_, .f32⟩
  | .hbm, ⟨33, _⟩ => ⟨S64x128, .f32⟩
  | .hbm, ⟨34, _⟩ => ⟨S64x128, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S256_S1x1x256_2 : S256.BroadcastsInDim S1x1x256 (![2] : Fin 1 → Fin S1x1x256.rank)
  bcast_S1x1x256_S64x512x256_0_1_2 : S1x1x256.BroadcastsInDim S64x512x256 (![0, 1, 2] : Fin 3 → Fin S64x512x256.rank)
  bcast_S_S64x512x256 : S_.BroadcastsInDim S64x512x256 (![] : Fin 0 → Fin S64x512x256.rank)
  bcast_S128_S1x1x128_2 : S128.BroadcastsInDim S1x1x128 (![2] : Fin 1 → Fin S1x1x128.rank)
  bcast_S1x1x128_S64x512x128_0_1_2 : S1x1x128.BroadcastsInDim S64x512x128 (![0, 1, 2] : Fin 3 → Fin S64x512x128.rank)
  bcast_S_S64x512x128 : S_.BroadcastsInDim S64x512x128 (![] : Fin 0 → Fin S64x512x128.rank)
  reducesTo_S64x512x128_S64x128_d1 : S64x512x128.ReducesTo [1] S64x128
  h_S_ : 0 < S_.numel
  bcast_S_S64x128 : S_.BroadcastsInDim S64x128 (![] : Fin 0 → Fin S64x128.rank)
  gather_S100000x256_S64x512x1_S64x512x256_2_0_n_n_0_2_1256_wf : GatherDims.WF S100000x256 S64x512x1 S64x512x256 [2] [0] [] [0] [] 2 ![1, 256]
  dot_S64x512x512_S64x512x256_S64x512x256_2_1_1_2_0_0_wf : DotDims.WF S64x512x512 S64x512x256 S64x512x256 [2] [1] [1] [2] [0] [0]
  dot_S64x512x256_S256x128_S64x512x128_2_0_01_1_n_n_wf : DotDims.WF S64x512x256 S256x128 S64x512x128 [2] [0] [0, 1] [1] [] []
  dot_S64x512x512_S64x512x128_S64x512x128_2_1_1_2_0_0_wf : DotDims.WF S64x512x512 S64x512x128 S64x512x128 [2] [1] [1] [2] [0] [0]

variable [Facts₀]

def gather_S100000x256_S64x512x1_S64x512x256_2_0_n_n_0_2_1256 : GatherDims S100000x256 S64x512x1 S64x512x256 where
  offsetDims := [2]
  collapsedSliceDims := [0]
  operandBatchingDims := []
  startIndicesBatchingDims := []
  startIndexMap := [0]
  indexVectorDim := 2
  sliceSizes := ![1, 256]
  wf := gather_S100000x256_S64x512x1_S64x512x256_2_0_n_n_0_2_1256_wf
def dot_S64x512x512_S64x512x256_S64x512x256_2_1_1_2_0_0 : DotDims S64x512x512 S64x512x256 S64x512x256 where
  lhsContracting := [2]
  rhsContracting := [1]
  lhsNonContracting := [1]
  rhsNonContracting := [2]
  lhsBatch := [0]
  rhsBatch := [0]
  wf := dot_S64x512x512_S64x512x256_S64x512x256_2_1_1_2_0_0_wf
def dot_S64x512x256_S256x128_S64x512x128_2_0_01_1_n_n : DotDims S64x512x256 S256x128 S64x512x128 where
  lhsContracting := [2]
  rhsContracting := [0]
  lhsNonContracting := [0, 1]
  rhsNonContracting := [1]
  lhsBatch := []
  rhsBatch := []
  wf := dot_S64x512x256_S256x128_S64x512x128_2_0_01_1_n_n_wf
def dot_S64x512x512_S64x512x128_S64x512x128_2_1_1_2_0_0 : DotDims S64x512x512 S64x512x128 S64x512x128 where
  lhsContracting := [2]
  rhsContracting := [1]
  lhsNonContracting := [1]
  rhsNonContracting := [2]
  lhsBatch := [0]
  rhsBatch := [0]
  wf := dot_S64x512x512_S64x512x128_S64x512x128_2_1_1_2_0_0_wf

class Facts : Prop extends Facts₀ where

variable [Facts]
-- ==== Proof.Spec.lean ====
/-
  The graph-convolution stack as one function of the argument arrays, index by index, over the extended reals.

  For ONE graph on 512 nodes with adjacency `a` (512 × 512), node features `h` (512 × 256), a dense layer `w`
  (256 × 128) with bias `β` (128):
    first layer    `first i l  = max (∑ j, a i j * h j l) 0`,
    dense layer    `dense i k  = (∑ l, first i l * w l k) + β k`,
    second layer   `second i k = max (∑ j, a i j * dense j k) 0`,
    pooled row     `pooledRow k = (∑ over the nodes i of second i k) / 512`.
  For the batch of 64 graphs the result at `(b, k)` is graph `b`'s pooled row at `k`, the dense layer shared.
  Every product is a sum over one contracted coordinate and nothing is rearranged, so no law of the extended reals is
  used and the function is the same whether its arguments are finite or not. The zero both programs clamp at and the
  word of 512.0 are kept as the patterns the programs print: both carry the same ones, so they are never evaluated.
-/
import Idealize.ShloMosaic.PureOps.Ideal
import Idealize.ShloMosaic.PureOps.Ideal.Laws
import Idealize.ShloMosaic.Lib.ValueIdx

noncomputable section

namespace Cert.GraphConv

open Idealize.ShloMosaic Idealize.ShloMosaic.ValueIdx

/-- The zero both programs clamp at (the pattern of +0.0). -/
abbrev zeroWord : EReal := Ideal.ofBits .f32 0x00000000#32
/-- The node count both programs divide the pooled sum by (the pattern of 512.0). -/
abbrev nodesWord : EReal := Ideal.ofBits .f32 0x44000000#32

/-! ## One graph -/

section OneGraph

variable (a : Fin 512 → Fin 512 → EReal) (h : Fin 512 → Fin 256 → EReal) (w : Fin 256 → Fin 128 → EReal)
  (β : Fin 128 → EReal)

/-- First layer at node `i`, feature `l`: the neighbours' features summed with the adjacency weights, clamped at zero. -/
def first (i : Fin 512) (l : Fin 256) : EReal := max (∑ j : Fin 512, a i j * h j l) zeroWord

/-- Dense layer at node `i`, output feature `k`. -/
def dense (i : Fin 512) (k : Fin 128) : EReal := (∑ l : Fin 256, first a h i l * w l k) + β k

/-- Second layer at node `i`, feature `k`. -/
def second (i : Fin 512) (k : Fin 128) : EReal := max (∑ j : Fin 512, a i j * dense a h w β j k) zeroWord

/-- The pooled row: the mean over the 512 nodes, as the sum divided by the word of 512.0. -/
def pooledRow (k : Fin 128) : EReal := Ideal.div (∑ i : Fin 512, second a h w β i k) nodesWord

end OneGraph

/-! ## The batch -/

/-- The batch of adjacency matrices, [64, 512, 512]. -/
abbrev ShA : Shape := ⟨3, ![64, 512, 512]⟩
/-- The batch of node features, [64, 512, 256]. -/
abbrev ShH : Shape := ⟨3, ![64, 512, 256]⟩
/-- The dense layer's weights, [256, 128]. -/
abbrev ShW : Shape := ⟨2, ![256, 128]⟩
/-- The dense layer's bias, [128]. -/
abbrev ShB : Shape := ⟨1, ![128]⟩
/-- The pooled result, [64, 128]. -/
abbrev ShO : Shape := ⟨2, ![64, 128]⟩

/-- The result for graph `b` at feature `k`: that graph's pooled row, the dense layer shared by all graphs. -/
def pooledAt (A : ShA.Idx → EReal) (H : ShH.Idx → EReal) (W : ShW.Idx → EReal) (B : ShB.Idx → EReal)
    (b : Fin 64) (k : Fin 128) : EReal :=
  pooledRow (fun i j => A (ix3 b i j)) (fun j l => H (ix3 b j l)) (fun l k' => W (ix2 l k')) (fun k' => B (ix1 k')) k

/-- The whole result array, [64, 128]. -/
def pooled (A : ShA.Idx → EReal) (H : ShH.Idx → EReal) (W : ShW.Idx → EReal) (B : ShB.Idx → EReal) : ShO.Idx → EReal :=
  fun y => pooledAt A H W B (y 0) (y 1)

end Cert.GraphConv

end
-- ==== Proof.LibPlainMatmul.lean ====
/-
  A plain matrix product into a zero accumulator, read at one entry over the extended reals.

  For `a : [M, K]` and `b : [K, N]` under the dimension numbers "contract the left operand's axis 1 with the right
  operand's axis 0, no batch axis" (`DotDims.plain M K N`), the product accumulated into the zero splat is, at entry
  `(i, l)`, the sum over the contracted coordinate `k` of `a (i, k) * b (k, l)`: the contraction index of these
  dimension numbers has one axis of extent `K`, so the sum over it is re-indexed by its one coordinate, and the operand
  indices at `(i, l)` and `k` are `(i, k)` and `(k, l)`. Nothing is assumed of the entries (they may be infinite).
-/
import Idealize.ShloMosaic.PureOps.Ideal.Laws
import Idealize.ShloMosaic.Lib.ValueIdx

noncomputable section

namespace Idealize.ShloMosaic.PlainMatmul

open Idealize.ShloMosaic Idealize.ShloMosaic.ValueIdx

variable (M K N : Nat)

/-- The left operand is read on row `i` of the output entry, -/
theorem lhs_row (j : (⟨2, ![M, N]⟩ : Shape).Idx) (q : (DotDims.plain M K N).contr.Idx) :
    ((DotDims.plain M K N).lhsIdx j q 0).val = (j 0).val := rfl
/-- at the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate, -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- on column `l` of the output entry. -/
theorem rhs_col (j : (⟨2, ![M, N]⟩ : Shape).Idx) (q : (DotDims.plain M K N).contr.Idx) :
    ((DotDims.plain M K N).rhsIdx j q 1).val = (j 1).val := rfl

/-- THE PRODUCT AT AN ENTRY: `(a · b) (i, l) = ∑ k, a (i, k) * b (k, l)`, into the zero accumulator. -/
theorem matmul_zero_apply {φ₁ φ₂ : FTy} (prec : Option ContractPrecision)
    (a : FVec Ideal ⟨2, ![M, K]⟩ φ₁) (b : FVec Ideal ⟨2, ![K, N]⟩ φ₂) (i : Fin M) (l : Fin N) :
    FloatOps.matmul (DotDims.plain M K N) prec a b (constant (F := Ideal) ⟨2, ![M, N]⟩ .f32 0x00000000#32) (ix2 i l)
      = ∑ k : Fin K, a (ix2 i k) * b (ix2 k l) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i l) ((contrEquiv1 (DotDims.plain M K N) K rfl rfl).symm k) = ix2 i k :=
    funext fun c => Fin.ext (by
      match c with
      | ⟨0, _⟩ => exact lhs_row M K N _ _
      | ⟨1, _⟩ => exact (lhs_col M K N _ _).trans hk)
  have er : (DotDims.plain M K N).rhsIdx (ix2 i l) ((contrEquiv1 (DotDims.plain M K N) K rfl rfl).symm k) = ix2 k l :=
    funext fun c => Fin.ext (by
      match c with
      | ⟨0, _⟩ => exact (rhs_row M K N _ _).trans hk
      | ⟨1, _⟩ => exact rhs_col M K N _ _)
  rw [el, er]

end Idealize.ShloMosaic.PlainMatmul

end
-- ==== Proof.KernelRow.lean ====
/-
  One graph's pooled row as the kernel body computes it.

  The body handles the eight graphs of its block one after the other; for each it loads the graph's adjacency and
  features (a slice of leading extent one of the block, viewed as a matrix), runs first layer, dense layer, second
  layer, sums the nodes and divides by 512. `graphRow` is that computation as one function of the dense weights, the
  bias row, the adjacency and the features; every one of the eight stored rows is `graphRow` of its own slices (by
  unfolding: the program's text only cuts the same chain at different places). Read at a feature over the extended
  reals, `graphRow` is the one-graph stack `GraphConv.pooledRow`: each of the three products is a plain matrix product
  into zero, the bias row is broadcast down the nodes, the node sum is a one-axis reduction.
-/
import proofs.«430194_j14388140441617_2_alg».proof.Proof.Gen.KernelIdeal.Frame
import proofs.«430194_j14388140441617_2_alg».proof.Proof.Spec
import proofs.«430194_j14388140441617_2_alg».proof.Proof.LibPlainMatmul
import Idealize.ShloMosaic.Lib.Pipeline.Value
import Idealize.ShloMosaic.Lib.ValueIdx
import Idealize.ShloMosaic.PureOps.Ideal.Laws

noncomputable section

namespace Cert.KernelIdeal.Row

open Cert.KernelIdeal Cert.KernelIdeal.Gen Idealize.ShloMosaic Idealize.ShloMosaic.ValueIdx Cert.GraphConv

/-! ## The body's computation for one graph, at any instance -/

section AnyInstance

variable {F : FTy → Type} [FloatOps F]

/-- First layer of one graph: `max (a · h) 0`. -/
def firstLayer (a : FVec F S512x512 .f32) (h : FVec F S512x256 .f32) : FVec F S512x256 .f32 :=
  maximumf (matmul dot_S512x512_S512x256_S512x256_1_0_0_1_n_n none a h (constant S512x256 .f32 0x00000000#32))
    (broadcast S512x256 (Scalar.ofBits .f32 0x00000000#32))

/-- From the first layer `x` on: dense layer `x · w + b`, second layer `max (a · _) 0`, node sum, division by 512. -/
def poolOf (w : Vec F S256x128 .f32) (b : FVec F S1x128 .f32) (a : FVec F S512x512 .f32) (x : FVec F S512x256 .f32) :
    FVec F S128 .f32 :=
  divf (multiReduction .add [0] S128
      (maximumf (matmul dot_S512x512_S512x128_S512x128_1_0_0_1_n_n none a
          (addf (matmul dot_S512x256_S256x128_S512x128_1_0_0_1_n_n none x w (constant S512x128 .f32 0x00000000#32))
            (broadcastTo S512x128 b broadcasts_S1x128_S512x128))
          (constant S512x128 .f32 0x00000000#32))
        (broadcast S512x128 (Scalar.ofBits .f32 0x00000000#32)))
      0x00000000#32 reduces_S512x128_S128 (.inl rfl) rfl)
    (broadcast S128 (Scalar.ofBits .f32 0x44000000#32))

/-- One graph's pooled row. -/
def graphRow (w : Vec F S256x128 .f32) (b : FVec F S1x128 .f32) (a : FVec F S512x512 .f32) (h : FVec F S512x256 .f32) :
    FVec F S128 .f32 :=
  poolOf w b a (firstLayer a h)

/-- A graph's adjacency: its slice of the block, viewed as a matrix. -/
abbrev adjOf (v : Vec F S1x512x512 .f32) : FVec F S512x512 .f32 := shapeCast S512x512 v shapeCasts_S1x512x512_S512x512
/-- A graph's features: its slice of the block, viewed as a matrix. -/
abbrev featOf (v : Vec F S1x512x256 .f32) : FVec F S512x256 .f32 := shapeCast S512x256 v shapeCasts_S1x512x256_S512x256
/-- A pooled row stored as a one-row block. -/
abbrev asRow (v : FVec F S128 .f32) : FVec F S1x128 .f32 := shapeCast S1x128 v shapeCasts_S128_S1x128

/-! The eight stored rows, each the pooled row of its own slices. -/

theorem pay_row0 (v0 : Vec F S256x128 .f32) (v1 : Vec F S1x128 .f32) (va : Vec F S1x512x512 .f32) (vh : Vec F S1x512x256 .f32) :
    k0_pay2 v0 v1 va vh = asRow (graphRow v0 (k0_pay1 v1) (adjOf va) (featOf vh)) := rfl
theorem pay_row1 (v0 : Vec F S256x128 .f32) (v2 : FVec F S1x128 .f32) (va : Vec F S1x512x512 .f32) (vh : Vec F S1x512x256 .f32) :
    k0_pay5 v0 v2 (k0_pay3 va) (k0_pay4 va vh) = asRow (graphRow v0 v2 (adjOf va) (featOf vh)) := rfl
theorem pay_row2 (v0 : Vec F S256x128 .f32) (v2 : FVec F S1x128 .f32) (va : Vec F S1x512x512 .f32) (vh : Vec F S1x512x256 .f32) :
    k0_pay6 v0 v2 va vh = asRow (graphRow v0 v2 (adjOf va) (featOf vh)) := rfl
theorem pay_row3 (v0 : Vec F S256x128 .f32) (v2 : FVec F S1x128 .f32) (va : Vec F S1x512x512 .f32) (vh : Vec F S1x512x256 .f32) :
    k0_pay7 v0 v2 va vh = asRow (graphRow v0 v2 (adjOf va) (featOf vh)) := rfl
theorem pay_row4 (v0 : Vec F S256x128 .f32) (v2 : FVec F S1x128 .f32) (va : Vec F S1x512x512 .f32) (vh : Vec F S1x512x256 .f32) :
    k0_pay9 (k0_pay8 v0 v2 va vh) (Scalar.ofBits .f32 0x44000000#32) = asRow (graphRow v0 v2 (adjOf va) (featOf vh)) := rfl
theorem pay_row5 (v0 : Vec F S256x128 .f32) (v2 : FVec F S1x128 .f32) (va : Vec F S1x512x512 .f32) (vh : Vec F S1x512x256 .f32) :
    k0_pay10 v0 v2 va vh = asRow (graphRow v0 v2 (adjOf va) (featOf vh)) := rfl
theorem pay_row6 (v0 : Vec F S256x128 .f32) (v2 : FVec F S1x128 .f32) (va : Vec F S1x512x512 .f32) (vh : Vec F S1x512x256 .f32) :
    k0_pay13 v0 v2 (k0_pay11 va) (k0_pay12 va vh) = asRow (graphRow v0 v2 (adjOf va) (featOf vh)) := rfl
theorem pay_row7 (v0 : Vec F S256x128 .f32) (v2 : FVec F S1x128 .f32) (va : Vec F S1x512x512 .f32) (vh : Vec F S1x512x256 .f32) :
    k0_pay14 v0 v2 va vh = asRow (graphRow v0 v2 (adjOf va) (featOf vh)) := rfl

end AnyInstance

/-! ## Over the extended reals: the row at a feature is the one-graph stack -/

/-- The first layer at node `i`, feature `l`. -/
theorem firstLayer_apply (a : FVec Ideal S512x512 .f32) (h : FVec Ideal S512x256 .f32) (i : Fin 512) (l : Fin 256) :
    firstLayer (F := Ideal) a h (ix2 i l) = first (fun i j => a (ix2 i j)) (fun j l => h (ix2 j l)) i l :=
  congrArg (max · zeroWord) (PlainMatmul.matmul_zero_apply 512 512 256 none a h i l)

/-- The reduced index `k` with the node coordinate `i` put back is `(i, k)`. -/
theorem lift_node (k : Fin 128) (i : Fin 512) : (reduces_S512x128_S128 : S512x128.Reduces [0] S128).lift (ix1 k) i = ix2 i k :=
  funext fun c => Fin.ext (by match c with | ⟨0, _⟩ => rfl | ⟨1, _⟩ => rfl)

/-- The bias row broadcast down the nodes reads the row at the feature. -/
theorem bias_apply (b : FVec Ideal S1x128 .f32) (j : Fin 512) (k : Fin 128) :
    broadcastTo S512x128 b broadcasts_S1x128_S512x128 (ix2 j k) = b (ix2 0 k) :=
  broadcastTo_apply b broadcasts_S1x128_S512x128 (ix2 j k) (ix2 0 k) (fun c => by
    match c with
    | ⟨0, _⟩ => rfl
    | ⟨1, _⟩ => rfl)

/-- From the first layer on, at feature `k`. -/
theorem poolOf_apply (w : Vec Ideal S256x128 .f32) (b : FVec Ideal S1x128 .f32) (a : FVec Ideal S512x512 .f32)
    (x : FVec Ideal S512x256 .f32) (k : Fin 128) :
    poolOf (F := Ideal) w b a x (ix1 k)
      = Ideal.div (∑ i : Fin 512, max (∑ j : Fin 512, a (ix2 i j) * ((∑ l : Fin 256, x (ix2 j l) * w (ix2 l k)) + b (ix2 0 k)))
          zeroWord) nodesWord := by
  refine congrArg (Ideal.div · nodesWord) ?_
  refine (Ideal.multiReduction_add_single _ 0x00000000#32 reduces_S512x128_S128 (.inl rfl) rfl (ix1 k)).trans ?_
  refine Finset.sum_congr rfl fun i _ => ?_
  refine (congrArg _ (lift_node k i)).trans ?_
  refine congrArg (max · zeroWord) ?_
  refine (PlainMatmul.matmul_zero_apply 512 512 128 none a _ i k).trans ?_
  refine Finset.sum_congr rfl fun j _ => ?_
  refine congrArg (a (ix2 i j) * ·) ?_
  exact congr (congrArg HAdd.hAdd (PlainMatmul.matmul_zero_apply 512 256 128 none x w j k)) (bias_apply b j k)

/-- THE ROW AT A FEATURE: the one-graph stack of the adjacency, the features, the dense weights and the bias row. -/
theorem graphRow_apply (w : Vec Ideal S256x128 .f32) (b : FVec Ideal S1x128 .f32) (a : FVec Ideal S512x512 .f32)
    (h : FVec Ideal S512x256 .f32) (k : Fin 128) :
    graphRow (F := Ideal) w b a h (ix1 k)
      = pooledRow (fun i j => a (ix2 i j)) (fun j l => h (ix2 j l)) (fun l k' => w (ix2 l k')) (fun k' => b (ix2 0 k')) k := by
  unfold graphRow
  rw [poolOf_apply]
  unfold pooledRow second dense
  simp only [firstLayer_apply]

end Cert.KernelIdeal.Row

end
-- ==== Proof.KernelBlock.lean ====
/-
  What one grid point leaves in its output block.

  A grid point works on a block of eight graphs: adjacency `x0 : [8, 512, 512]`, features `x1 : [8, 512, 256]`, the
  dense weights `x2` and the bias row `x3 : [1, 128]` whole. Row `r` of the output block is the pooled row of graph `r`
  of the block: the body stores it from the slices `x0[r]`, `x1[r]`. So the block the eight stores leave is ONE
  function of the block index, `blockAt … r k` = the one-graph stack of graph `r`'s slices at feature `k`; the stores'
  rectangles are the eight rows, which tile the block.
-/
import proofs.«430194_j14388140441617_2_alg».proof.Proof.KernelRow

noncomputable section

namespace Cert.KernelIdeal.Block

open Cert.KernelIdeal Cert.KernelIdeal.Gen Cert.KernelIdeal.Row
open Idealize.ShloMosaic Idealize.ShloMosaic.ValueIdx Cert.GraphConv

variable (x0 : Vec Ideal S8x512x512 .f32) (x1 : Vec Ideal S8x512x256 .f32) (x2 : Vec Ideal S256x128 .f32)
  (x3 : Vec Ideal S1x128 .f32)

/-- Entry `(r, k)` of the output block: graph `r`'s pooled row at feature `k`. -/
def blockAt (r : Fin 8) (k : Fin 128) : EReal :=
  pooledRow (fun i j => x0 (ix3 r i j)) (fun j l => x1 (ix3 r j l)) (fun l k' => x2 (ix2 l k')) (fun k' => x3 (ix2 0 k')) k

/-- The output block as a function of its index. -/
def blockFn : S8x128.Idx → EReal := fun y => blockAt x0 x1 x2 x3 (y 0) (y 1)

/-! ## The loads -/

theorem zero2 : (![0, 0] : Fin 2 → Nat) = fun _ => 0 := funext fun a => by fin_cases a <;> rfl

/-- Graph `r`'s adjacency, loaded as the slice at row `r` and viewed as a matrix, is the block at `(r, i, j)`. -/
theorem adj_slice (r : Nat) (hr : r < 8)
    (inb : ∀ a, (![r, 0, 0] : Fin 3 → Nat) a + S1x512x512.size a ≤ S8x512x512.size a) (i j : Fin 512) :
    adjOf (View.ld x0 (Rect.unit (s := S8x512x512) ![r, 0, 0] S1x512x512.size inb)) (ix2 i j) = x0 (ix3 ⟨r, hr⟩ i j) := by
  refine (shapeCast_dropUnit_apply ![512, 512] _ shapeCasts_S1x512x512_S512x512 (ix2 i j)).trans ?_
  refine congrArg x0 (funext fun c => Fin.ext ?_)
  match c with
  | ⟨0, _⟩ => show r + 1 * 0 = r; omega
  | ⟨1, _⟩ => show 0 + 1 * i.val = i.val; omega
  | ⟨2, _⟩ => show 0 + 1 * j.val = j.val; omega

/-- Graph `r`'s features likewise. -/
theorem feat_slice (r : Nat) (hr : r < 8)
    (inb : ∀ a, (![r, 0, 0] : Fin 3 → Nat) a + S1x512x256.size a ≤ S8x512x256.size a) (j : Fin 512) (l : Fin 256) :
    featOf (View.ld x1 (Rect.unit (s := S8x512x256) ![r, 0, 0] S1x512x256.size inb)) (ix2 j l) = x1 (ix3 ⟨r, hr⟩ j l) := by
  refine (shapeCast_dropUnit_apply ![512, 256] _ shapeCasts_S1x512x256_S512x256 (ix2 j l)).trans ?_
  refine congrArg x1 (funext fun c => Fin.ext ?_)
  match c with
  | ⟨0, _⟩ => show r + 1 * 0 = r; omega
  | ⟨1, _⟩ => show 0 + 1 * j.val = j.val; omega
  | ⟨2, _⟩ => show 0 + 1 * l.val = l.val; omega

/-- The dense weights are loaded whole, -/
theorem weights_whole : View.ld x2 r0_0 = x2 := View.ld_unit_zero (S := S256x128) zero2 _ x2
/-- and so is the bias row (its cast to its own shape is the identity). -/
theorem bias_whole : k0_pay1 (View.ld x3 r0_1) = x3 := by
  unfold k0_pay1
  rw [shapeCast_self, View.ld_unit_zero (S := S1x128) zero2 _ x3]

/-! ## One stored row -/

/-- The row stored through the rectangle of row `r` is the block function there. -/
theorem piece (r : Nat) (hr : r < 8)
    (inbA : ∀ a, (![r, 0, 0] : Fin 3 → Nat) a + S1x512x512.size a ≤ S8x512x512.size a)
    (inbH : ∀ a, (![r, 0, 0] : Fin 3 → Nat) a + S1x512x256.size a ≤ S8x512x256.size a)
    (inbO : ∀ a, (![r, 0] : Fin 2 → Nat) a + S1x128.size a ≤ S8x128.size a) (x : S1x128.Idx) :
    asRow (graphRow (View.ld x2 r0_0) (k0_pay1 (View.ld x3 r0_1))
        (adjOf (View.ld x0 (Rect.unit (s := S8x512x512) ![r, 0, 0] S1x512x512.size inbA)))
        (featOf (View.ld x1 (Rect.unit (s := S8x512x256) ![r, 0, 0] S1x512x256.size inbH)))) x
      = blockFn x0 x1 x2 x3 ((Rect.unit (s := S8x128) ![r, 0] S1x128.size inbO).emb x) := by
  have hx0 : (x 0).val = 0 := Nat.lt_one_iff.mp (x 0).isLt
  obtain ⟨k, hk⟩ : ∃ k : Fin 128, k.val = (x 1).val := ⟨⟨(x 1).val, (x 1).isLt⟩, rfl⟩
  have hemb : (Rect.unit (s := S8x128) ![r, 0] S1x128.size inbO).emb x = ix2 (⟨r, hr⟩ : Fin 8) k :=
    funext fun c => Fin.ext (by
      match c with
      | ⟨0, _⟩ => show r + 1 * (x 0).val = r; omega
      | ⟨1, _⟩ => show 0 + 1 * (x 1).val = k.val; omega)
  rw [hemb]
  show _ = blockAt x0 x1 x2 x3 ⟨r, hr⟩ k
  refine (shapeCast_addUnit_apply ![128] _ shapeCasts_S128_S1x128 x).trans ?_
  have hx : (fun a : Fin 1 => x a.succ) = ix1 k :=
    funext fun a => Fin.ext (by match a with | ⟨0, _⟩ => exact hk.symm)
  rw [hx, graphRow_apply, weights_whole, bias_whole]
  unfold blockAt
  have eA : (fun i j : Fin 512 => adjOf (View.ld x0 (Rect.unit (s := S8x512x512) ![r, 0, 0] S1x512x512.size inbA)) (ix2 i j))
      = fun i j => x0 (ix3 ⟨r, hr⟩ i j) := funext fun i => funext fun j => adj_slice x0 r hr inbA i j
  have eH : (fun (j : Fin 512) (l : Fin 256) => featOf (View.ld x1 (Rect.unit (s := S8x512x256) ![r, 0, 0] S1x512x256.size inbH)) (ix2 j l))
      = fun j l => x1 (ix3 ⟨r, hr⟩ j l) := funext fun j => funext fun l => feat_slice x1 r hr inbH j l
  rw [eA, eH]

/-! ## The block -/

/-- THE OUTPUT BLOCK after the body: the block function of the four input blocks. -/
theorem out_block : out0_4 x0 x1 x2 x3 = blockFn x0 x1 x2 x3 := by
  funext y
  unfold out0_4
  refine View.canon_apply_of_pieces (Val := Elt Ideal) (S := S8x128) (e := .f32) (blockFn x0 x1 x2 x3) _ ?_ y (cover0_4 _ _ _ _ _ _ _ _ y)
  intro p hp x
  simp only [List.mem_cons, List.not_mem_nil, or_false] at hp
  rcases hp with rfl | rfl | rfl | rfl | rfl | rfl | rfl | rfl
  · exact (congrFun (pay_row7 _ _ _ _) x).trans (piece x0 x1 x2 x3 7 (by omega) inb_S8x512x512_S1x512x512_7_0_0 inb_S8x512x256_S1x512x256_7_0_0 inb_S8x128_S1x128_7_0 x)
  · exact (congrFun (pay_row6 _ _ _ _) x).trans (piece x0 x1 x2 x3 6 (by omega) inb_S8x512x512_S1x512x512_6_0_0 inb_S8x512x256_S1x512x256_6_0_0 inb_S8x128_S1x128_6_0 x)
  · exact (congrFun (pay_row5 _ _ _ _) x).trans (piece x0 x1 x2 x3 5 (by omega) inb_S8x512x512_S1x512x512_5_0_0 inb_S8x512x256_S1x512x256_5_0_0 inb_S8x128_S1x128_5_0 x)
  · exact (congrFun (pay_row4 _ _ _ _) x).trans (piece x0 x1 x2 x3 4 (by omega) inb_S8x512x512_S1x512x512_4_0_0 inb_S8x512x256_S1x512x256_4_0_0 inb_S8x128_S1x128_4_0 x)
  · exact (congrFun (pay_row3 _ _ _ _) x).trans (piece x0 x1 x2 x3 3 (by omega) inb_S8x512x512_S1x512x512_3_0_0 inb_S8x512x256_S1x512x256_3_0_0 inb_S8x128_S1x128_3_0 x)
  · exact (congrFun (pay_row2 _ _ _ _) x).trans (piece x0 x1 x2 x3 2 (by omega) inb_S8x512x512_S1x512x512_2_0_0 inb_S8x512x256_S1x512x256_2_0_0 inb_S8x128_S1x128_2_0 x)
  · exact (congrFun (pay_row1 _ _ _ _) x).trans (piece x0 x1 x2 x3 1 (by omega) inb_S8x512x512_S1x512x512_1_0_0 inb_S8x512x256_S1x512x256_1_0_0 inb_S8x128_S1x128_1_0 x)
  · exact (congrFun (pay_row0 _ _ _ _) x).trans (piece x0 x1 x2 x3 0 (by omega) inb_S8x512x512_S1x512x512_0_0_0 inb_S8x512x256_S1x512x256_0_0_0 inb_S8x128_S1x128_0_0 x)

end Cert.KernelIdeal.Block

end
-- ==== Proof.KernelArray.lean ====
/-
  From the blocks to the whole result array.

  The grid has eight points; point `t` works on graphs `8 t … 8 t + 7`: its adjacency and feature blocks are the rows
  `8 t + r` of the two batched arrays, the dense weights and the bias row are whole at every point, and it writes back
  rows `8 t … 8 t + 7` of the [64, 128] result. So what point `t` writes back is block `t` of ONE whole-array function,
  the pooled stack `GraphConv.pooled` of the arrays as the region finds them; the eight blocks cover the 64 rows, so
  after the run the result array is that function.
-/
import proofs.«430194_j14388140441617_2_alg».proof.Proof.Gen.KernelIdeal.Value
import proofs.«430194_j14388140441617_2_alg».proof.Proof.KernelBlock

noncomputable section

namespace Cert.KernelIdeal.Whole

open Cert.KernelIdeal Cert.KernelIdeal.Gen Cert.KernelIdeal.Value Cert.KernelIdeal.Block
open Idealize.ShloMosaic Idealize.ShloMosaic.TcCoe Idealize.ShloMosaic.ValueIdx Idealize.SL.Sem Cert.GraphConv
open Idealize.ShloMosaic.Pipeline (Dat)

variable (m : (ℓ : Loc nD τ sig) → Buf (Elt Ideal) ℓ) (ρ : Dev nD → PrngReg)

/-- The adjacency batch as the region finds it. -/
abbrev arrA (c : Dev nD) : Vec Ideal S64x512x512 .f32 := V m c main_arg0
/-- The node features as the region finds them (written by the host operations before it). -/
abbrev arrH (c : Dev nD) : Vec Ideal S64x512x256 .f32 := V m c main_v3
/-- The dense weights. -/
abbrev arrW (c : Dev nD) : Vec Ideal S256x128 .f32 := V m c main_arg4
/-- The bias as the one-row array the region is handed. -/
abbrev arrB (c : Dev nD) : Vec Ideal S1x128 .f32 := V m c main_v4

/-- The whole-array function the result ends at: the pooled stack of those four arrays. -/
abbrev result (c : Dev nD) : S64x128.Idx → EReal :=
  pooled (arrA m c) (arrH m c) (arrW m c) (fun q => arrB m c (ix2 0 (q 0)))

/-- The printed index maps, decided over the eight points: the two batched inputs and the output move with the point on
    their leading axis, the two shared inputs stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 8 := Nat.lt_of_lt_of_eq t.isLt N_0

/-- WHAT POINT `t` WRITES BACK is block `t` of the pooled stack of the arrays. -/
theorem flushed_eq (c : Dev nD) (t : Fin cfg0.N) :
    (dats m 0 c).flushed 4 t = ((cfg0.win 4).blk t).view.read (Elt Ideal) (result m c) := by
  rw [flushed4, out_block]
  obtain ⟨a0, a1, a2, h0, h1, h2, w0, w1, b0, b1, o0, o1⟩ := idx_facts t
  have ht := point_lt t
  funext y
  obtain ⟨r, k, rfl⟩ : ∃ (r : Fin 8) (k : Fin 128), y = ix2 r k := ⟨y 0, y 1, eq_ix2 y⟩
  have hrow : 8 * t.val + r.val < 64 := by have := r.isLt; omega
  have hemb : ((cfg0.win 4).blk t).view.emb (ix2 r k) = ix2 (⟨8 * t.val + r.val, hrow⟩ : Fin 64) k :=
    funext fun a => Fin.ext (by
      match a with
      | ⟨0, _⟩ => show win0_4.index t (0 : Fin 2) * 8 + 1 * r.val = 8 * t.val + r.val; omega
      | ⟨1, _⟩ => show win0_4.index t (1 : Fin 2) * 128 + 1 * k.val = k.val; omega)
  show blockAt (iblk m c 0 t) (iblk m c 1 t) (iblk m c 2 t) (iblk m c 3 t) r k
    = result m c (((cfg0.win 4).blk t).view.emb (ix2 r k))
  rw [hemb]
  show _ = pooledAt (arrA m c) (arrH m c) (arrW m c) (fun q => arrB m c (ix2 0 (q 0))) ⟨8 * t.val + r.val, hrow⟩ k
  have eA : (fun i j : Fin 512 => iblk m c 0 t (ix3 r i j)) = fun i j => arrA m c (ix3 ⟨8 * t.val + r.val, hrow⟩ i j) :=
    funext fun i => funext fun j => by
      show V m c main_arg0 (((cfg0.win 0).blk t).view.emb (ix3 r i j)) = V m c main_arg0 (ix3 ⟨8 * t.val + r.val, hrow⟩ i j)
      refine congrArg _ (funext fun a => Fin.ext ?_)
      match a with
      | ⟨0, _⟩ => show win0_0.index t (0 : Fin 3) * 8 + 1 * r.val = 8 * t.val + r.val; omega
      | ⟨1, _⟩ => show win0_0.index t (1 : Fin 3) * 512 + 1 * i.val = i.val; omega
      | ⟨2, _⟩ => show win0_0.index t (2 : Fin 3) * 512 + 1 * j.val = j.val; omega
  have eH : (fun (j : Fin 512) (l : Fin 256) => iblk m c 1 t (ix3 r j l)) = fun j l => arrH m c (ix3 ⟨8 * t.val + r.val, hrow⟩ j l) :=
    funext fun j => funext fun l => by
      show V m c main_v3 (((cfg0.win 1).blk t).view.emb (ix3 r j l)) = V m c main_v3 (ix3 ⟨8 * t.val + r.val, hrow⟩ j l)
      refine congrArg _ (funext fun a => Fin.ext ?_)
      match a with
      | ⟨0, _⟩ => show win0_1.index t (0 : Fin 3) * 8 + 1 * r.val = 8 * t.val + r.val; omega
      | ⟨1, _⟩ => show win0_1.index t (1 : Fin 3) * 512 + 1 * j.val = j.val; omega
      | ⟨2, _⟩ => show win0_1.index t (2 : Fin 3) * 256 + 1 * l.val = l.val; omega
  have eW : (fun (l : Fin 256) (k' : Fin 128) => iblk m c 2 t (ix2 l k')) = fun l k' => arrW m c (ix2 l k') :=
    funext fun l => funext fun k' => by
      show V m c main_arg4 (((cfg0.win 2).blk t).view.emb (ix2 l k')) = V m c main_arg4 (ix2 l k')
      refine congrArg _ (funext fun a => Fin.ext ?_)
      match a with
      | ⟨0, _⟩ => show win0_2.index t (0 : Fin 2) * 256 + 1 * l.val = l.val; omega
      | ⟨1, _⟩ => show win0_2.index t (1 : Fin 2) * 128 + 1 * k'.val = k'.val; omega
  have eB : (fun k' : Fin 128 => iblk m c 3 t (ix2 0 k')) = fun k' => arrB m c (ix2 0 k') :=
    funext fun k' => by
      show V m c main_v4 (((cfg0.win 3).blk t).view.emb (ix2 0 k')) = V m c main_v4 (ix2 0 k')
      refine congrArg _ (funext fun a => Fin.ext ?_)
      match a with
      | ⟨0, _⟩ => show win0_3.index t (0 : Fin 2) * 1 + 1 * 0 = 0; omega
      | ⟨1, _⟩ => show win0_3.index t (1 : Fin 2) * 128 + 1 * k'.val = k'.val; omega
  exact congrFun (congr (congr (congr (congrArg pooledRow eA) eH) eW) eB) k

/-- An index of the result array is in point `t`'s block iff each coordinate is in the block's range on its axis. -/
theorem mem_blk (t : Fin cfg0.N) (i : S64x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v5).slice (win0_4.rect t)).set ↔ _
  rw [View.set_slice_whole, Rect.mem_set_unit]
  exact Iff.rfl

/-- Every row of the result lies in the block of the point that handles its group of eight graphs. -/
theorem cover (i : S64x128.Idx) : ∃ t : Fin cfg0.N, (cfg0.win 4).flush t = true ∧ i ∈ ((cfg0.win 4).blk t).view.set := by
  have hi0 : (i 0).val < 64 := (i 0).isLt
  have hi1 : (i 1).val < 128 := (i 1).isLt
  let t : Fin cfg0.N := ⟨(i 0).val / 8, Nat.lt_of_lt_of_eq (by omega : (i 0).val / 8 < 8) N_0.symm⟩
  obtain ⟨-, -, -, -, -, -, -, -, -, -, o0, o1⟩ := idx_facts t
  have tv : t.val = (i 0).val / 8 := rfl
  refine ⟨t, flush0_4 t, ?_⟩
  rw [mem_blk]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 128 ≤ (i 1).val ∧ (i 1).val < win0_4.index t (1 : Fin 2) * 128 + 128; omega

/-- THE RESULT ARRAY after the run: the pooled stack of the arrays as the region finds them. -/
theorem final (c : Dev nD) : (dats m 0 c).arrAt 4 cfg0.N = result m c :=
  (dats m 0 c).arrAt_eq_of_cover 4 (result m c) (fun t _ => flushed_eq m c t) cover

end Cert.KernelIdeal.Whole

end
-- ==== Proof.LibReduceAllOnes.lean ====
/-
  A host `reduce` by `and` over one-bit words that are all 1, from an initial 1, is 1 — the converse of reading a
  `jnp.all` back (there: the result is 1, so every element was). The reduce at a result index is a left fold by `and`,
  from the initial value's element, over the operand indices that reduce into it; a fold by `and` that starts at 1 and
  meets only 1s ends at 1.
-/
import Idealize.ShloMosaic.Lib.ReduceAll

namespace Idealize.ShloMosaic

namespace IntOp

/-- A left fold by `and` over one-bit words that starts at 1 and meets only 1s ends at 1. -/
theorem foldl_andi_of_all {ι : Type} (f : ι → BitVec 1) :
    ∀ (l : List ι) (init : BitVec 1), init = 1#1 → (∀ n ∈ l, f n = 1#1) → l.foldl (fun r n => andi r (f n)) init = 1#1
  | [], _, h, _ => h
  | a :: l, _, h, hf =>
    foldl_andi_of_all f l _ (andi_eq_one.2 ⟨h, hf a List.mem_cons_self⟩) fun n hn => hf n (List.mem_cons_of_mem _ hn)

end IntOp

namespace Host

variable {s t u : Shape} {axes : List (Fin s.rank)}

/-- A `stablehlo.reduce` by `and` of an operand that is 1 everywhere, from an initial value 1, is 1 at every result index. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact IntOp.foldl_andi_of_all x _ _ hinit fun i _ => hx i

end Host

end Idealize.ShloMosaic
-- ==== Proof.KernelFeatures.lean ====
/-
  The node features the region is handed, and what the index range makes of them.

  Before the region the program looks each node's entity up in the embedding table: an index `x` is first wrapped
  (`x + 100000` when `x < 0`, else `x`), the table's row at the wrapped index is gathered, and a row whose wrapped
  index lies outside `[0, 99999]` is REPLACED by a fill word; then the bias is added. When every index lies in
  `[-100000, 100000)` the wrapped index is in `[0, 99999]`, so no row is replaced and the features are the gathered
  rows plus the bias — the same rows, at the same wrapped indices, as a lookup with no fill.
  The dense bias is handed to the region as a one-row array, the bias reshaped.
-/
import proofs.«430194_j14388140441617_2_alg».proof.Proof.Gen.KernelIdeal.Frame
import proofs.«430194_j14388140441617_2_alg».proof.Proof.LibReduceAllOnes
import Idealize.ShloMosaic.Lib.Pipeline.Value
import Idealize.ShloMosaic.Lib.ValueIdx
import Idealize.ShloMosaic.Lib.StableHlo.Run
import Idealize.ShloMosaic.Lib.Affine

noncomputable section

namespace Cert.KernelIdeal.Feats

open Cert.KernelIdeal Cert.KernelIdeal.Gen
open Idealize.ShloMosaic Idealize.ShloMosaic.TcCoe Idealize.ShloMosaic.ValueIdx Idealize.ShloMosaic.StableHlo Idealize.SL.Sem

/-! ## One index word -/

theorem toInt_100000 : (100000#32 : BitVec 32).toInt = 100000 := by decide
theorem toInt_99999 : (99999#32 : BitVec 32).toInt = 99999 := by decide
theorem toInt_zero : (0#32 : BitVec 32).toInt = 0 := by decide

/-- Adding 100000 to a negative word no smaller than `-100000` does not wrap around. -/
theorem add_small (x : BitVec 32) (h : -100000 ≤ x.toInt) (h' : x.toInt < 0) :
    (x + 100000#32).toInt = x.toInt + 100000 := by
  rw [BitVec.toInt_add, toInt_100000]
  have h32 : (2 : Nat) ^ 32 = 4294967296 := by decide
  rw [h32, Int.bmod_def]
  omega

/-- THE WRAPPED INDEX of a word in `[-100000, 100000)` lies in `[0, 99999]`. -/
theorem wrap_range (x : BitVec 32) (h : -100000 ≤ x.toInt ∧ x.toInt < 100000) :
    (0#32 : BitVec 32).toInt ≤ (Scalar.select (IntOp.cmpi .slt x 0#32) (IntOp.addi x 100000#32) x).toInt
    ∧ (Scalar.select (IntOp.cmpi .slt x 0#32) (IntOp.addi x 100000#32) x).toInt ≤ (99999#32 : BitVec 32).toInt := by
  rw [toInt_zero, toInt_99999]
  unfold Scalar.select
  by_cases hneg : IntOp.cmpi .slt x 0#32 = 1
  · rw [if_pos hneg]
    have hlt : x.toInt < 0 := by have := IntOp.cmpi_slt.1 hneg; rwa [toInt_zero] at this
    show 0 ≤ (x + 100000#32).toInt ∧ (x + 100000#32).toInt ≤ 99999
    rw [add_small x h.1 hlt]
    omega
  · rw [if_neg hneg]
    have hge : ¬ x.toInt < 0 := fun hlt => hneg (IntOp.cmpi_slt.2 (by rwa [toInt_zero]))
    omega

/-! ## The lookup as the program writes it -/

section AnyInstance

variable {F : FTy → Type} [FloatOps F]

/-- The wrapped indices. -/
def wrapped (X : IVec S64x512 32) : IVec S64x512 32 :=
  select (cmpi .slt X (broadcastInDim S64x512 ![] bcast_S_S64x512 (constantI S_ 32 0#32)))
    (addi X (broadcastInDim S64x512 ![] bcast_S_S64x512 (constantI S_ 32 100000#32))) X

/-- The gather's start indices: the wrapped indices with a trailing unit axis. -/
def startIdx (X : IVec S64x512 32) : IVec S64x512x1 32 :=
  broadcastInDim S64x512x1 ![0, 1] bcast_S64x512_S64x512x1_0_1 (wrapped X)

/-- Per node: is the wrapped index inside `[0, 99999]`? -/
def rowOk (X : IVec S64x512 32) : IVec S64x512 1 :=
  Host.reduce IntOp.andi
    (andi (cmpi .sge (startIdx X) (broadcastInDim S64x512x1 ![] bcast_S_S64x512x1 (constantI S_ 32 0#32)))
      (cmpi .sle (startIdx X) (broadcastInDim S64x512x1 ![0, 1, 2] bcast_S1x1x1_S64x512x1_0_1_2
        (broadcastInDim S1x1x1 ![2] bcast_S1_S1x1x1_2 (constantI S1 32 99999#32)))))
    (constantI S_ 1 1#1) reducesTo_S64x512x1_S64x512_d2 h_S_

/-- The rows looked up, a row outside the table replaced by the fill word. -/
def taken (T : FVec F S100000x256 .f32) (X : IVec S64x512 32) : FVec F S64x512x256 .f32 :=
  select (broadcastInDim S64x512x256 ![0, 1] bcast_S64x512_S64x512x256_0_1 (rowOk X))
    (Host.gather gather_S100000x256_S64x512x1_S64x512x256_2_0_n_n_0_2_1256 T (startIdx X))
    (broadcastInDim S64x512x256 ![] bcast_S_S64x512x256 (constant S_ .f32 0x7FC00000#32))

/-- The bias laid over every node. -/
def biasOver (β : FVec F S256 .f32) : FVec F S64x512x256 .f32 :=
  broadcastInDim S64x512x256 ![0, 1, 2] bcast_S1x1x256_S64x512x256_0_1_2 (broadcastInDim S1x1x256 ![2] bcast_S256_S1x1x256_2 β)

/-- The node features: looked-up rows plus bias. -/
def feats (T : FVec F S100000x256 .f32) (X : IVec S64x512 32) (β : FVec F S256 .f32) : FVec F S64x512x256 .f32 :=
  addf (taken T X) (biasOver β)

variable (m : (ℓ : Loc nD τ sig) → Buf (Elt F) ℓ)

set_option maxRecDepth 200000 in
set_option maxHeartbeats 4000000 in
/-- WHAT THE REGION FINDS as its features array: `feats` of the table, the indices and the bias as launched. -/
theorem feats_found (c : Dev nD) :
    (V m c main_v3 : S64x512x256.Idx → Elt F .f32)
      = feats (m ((c : Thread nD τ).loc main_arg2)) (m ((c : Thread nD τ).loc main_arg1)) (m ((c : Thread nD τ).loc main_arg3)) := by
  dsimp only [V]
  simp only [hostOps0, hostOps0_1, List.flatten_cons, List.flatten_nil, List.append_nil, List.cons_append, List.nil_append]
  after_results
  rfl

set_option maxRecDepth 200000 in
set_option maxHeartbeats 4000000 in
/-- and as its bias row: the dense bias reshaped to one row. -/
theorem bias_found (c : Dev nD) :
    (V m c main_v4 : S1x128.Idx → Elt F .f32) = shapeCast S1x128 (m ((c : Thread nD τ).loc main_arg5)) shapeCasts_S128_S1x128 := by
  dsimp only [V]
  simp only [hostOps0, hostOps0_1, List.flatten_cons, List.flatten_nil, List.append_nil, List.cons_append, List.nil_append]
  after_results
  rfl

end AnyInstance

/-! ## Under the index range -/

/-- Every index lies in `[-100000, 100000)`: the valid range of an index into an axis of extent 100000, a negative
    index counting from the end. -/
def InRange (X : IVec S64x512 32) : Prop := ∀ p : S64x512.Idx, -100000 ≤ (X p).toInt ∧ (X p).toInt < 100000

/-- A scalar word broadcast to any shape reads that word. -/
theorem bcast_word {S : Shape} (h : S_.BroadcastsInDim S (![] : Fin 0 → Fin S.rank)) (w : BitVec 32) (i : S.Idx) :
    broadcastInDim S ![] h (constantI S_ 32 w) i = w :=
  broadcastInDim_apply _ h _ i ix0 (fun a => a.elim0)

/-- The wrapped index at a node. -/
theorem wrapped_apply (X : IVec S64x512 32) (p : S64x512.Idx) :
    wrapped X p = Scalar.select (IntOp.cmpi .slt (X p) 0#32) (IntOp.addi (X p) 100000#32) (X p) := by
  show Scalar.select (IntOp.cmpi .slt (X p) (broadcastInDim S64x512 ![] bcast_S_S64x512 (constantI S_ 32 0#32) p))
      (IntOp.addi (X p) (broadcastInDim S64x512 ![] bcast_S_S64x512 (constantI S_ 32 100000#32) p)) (X p) = _
  rw [bcast_word, bcast_word]

/-- The node a start index belongs to. -/
abbrev nodeOf (q : S64x512x1.Idx) : S64x512.Idx := fun a => match a with
  | ⟨0, _⟩ => ⟨(q 0).val, (q 0).isLt⟩
  | ⟨1, _⟩ => ⟨(q 1).val, (q 1).isLt⟩

/-- A start index is its node's wrapped index. -/
theorem startIdx_apply (X : IVec S64x512 32) (q : S64x512x1.Idx) : startIdx X q = wrapped X (nodeOf q) :=
  broadcastInDim_apply _ bcast_S64x512_S64x512x1_0_1 (wrapped X) q (nodeOf q) (fun a => match a with
    | ⟨0, _⟩ => by show (q 0).val = if (64 : Nat) = 1 then 0 else (q 0).val; rw [if_neg (by decide)]
    | ⟨1, _⟩ => by show (q 1).val = if (512 : Nat) = 1 then 0 else (q 1).val; rw [if_neg (by decide)])

abbrev unit3 : S1x1x1.Idx := fun a => match a with
  | ⟨0, _⟩ => ⟨0, Nat.one_pos⟩
  | ⟨1, _⟩ => ⟨0, Nat.one_pos⟩
  | ⟨2, _⟩ => ⟨0, Nat.one_pos⟩
abbrev unit1 : S1.Idx := fun a => match a with
  | ⟨0, _⟩ => ⟨0, Nat.one_pos⟩

/-- The upper bound the wrapped index is compared with is the word 99999 at every node. -/
theorem hi_apply (q : S64x512x1.Idx) :
    broadcastInDim S64x512x1 ![0, 1, 2] bcast_S1x1x1_S64x512x1_0_1_2
      (broadcastInDim S1x1x1 ![2] bcast_S1_S1x1x1_2 (constantI S1 32 99999#32)) q = 99999#32 := by
  refine (broadcastInDim_apply _ bcast_S1x1x1_S64x512x1_0_1_2 _ q unit3 (fun a => match a with
    | ⟨0, _⟩ => by show 0 = if (1 : Nat) = 1 then 0 else (q 0).val; rw [if_pos rfl]
    | ⟨1, _⟩ => by show 0 = if (1 : Nat) = 1 then 0 else (q 1).val; rw [if_pos rfl]
    | ⟨2, _⟩ => by show 0 = if (1 : Nat) = 1 then 0 else (q 2).val; rw [if_pos rfl])).trans ?_
  exact broadcastInDim_apply _ bcast_S1_S1x1x1_2 _ unit3 unit1 (fun a => match a with
    | ⟨0, _⟩ => by show 0 = if (1 : Nat) = 1 then 0 else (unit3 2).val; rw [if_pos rfl])

/-- Under the range every node's wrapped index is inside the table: the fill never fires. -/
theorem rowOk_one (X : IVec S64x512 32) (hX : InRange X) (p : S64x512.Idx) : rowOk X p = 1#1 := by
  unfold rowOk
  refine Host.reduce_andi_of_all _ _ _ _ rfl (fun q => ?_) p
  show IntOp.andi (IntOp.cmpi .sge (startIdx X q) (broadcastInDim S64x512x1 ![] bcast_S_S64x512x1 (constantI S_ 32 0#32) q))
      (IntOp.cmpi .sle (startIdx X q) (broadcastInDim S64x512x1 ![0, 1, 2] bcast_S1x1x1_S64x512x1_0_1_2
        (broadcastInDim S1x1x1 ![2] bcast_S1_S1x1x1_2 (constantI S1 32 99999#32)) q)) = 1#1
  rw [bcast_word, hi_apply, startIdx_apply, wrapped_apply]
  obtain ⟨h0, h1⟩ := wrap_range (X (nodeOf q)) (hX (nodeOf q))
  exact IntOp.andi_eq_one.2 ⟨IntOp.cmpi_sge.2 h0, IntOp.cmpi_sle.2 h1⟩

/-- The node a feature entry belongs to. -/
abbrev nodeOfFeat (i : S64x512x256.Idx) : S64x512.Idx := fun a => match a with
  | ⟨0, _⟩ => ⟨(i 0).val, (i 0).isLt⟩
  | ⟨1, _⟩ => ⟨(i 1).val, (i 1).isLt⟩

section AnyInstance'

variable {F : FTy → Type} [FloatOps F]

/-- Under the range the rows looked up are the gathered rows, none replaced. -/
theorem taken_eq (T : FVec F S100000x256 .f32) (X : IVec S64x512 32) (hX : InRange X) :
    taken T X = Host.gather gather_S100000x256_S64x512x1_S64x512x256_2_0_n_n_0_2_1256 T (startIdx X) := by
  funext i
  unfold taken
  rw [select_apply]
  have hm : broadcastInDim S64x512x256 ![0, 1] bcast_S64x512_S64x512x256_0_1 (rowOk X) i = 1#1 :=
    (broadcastInDim_apply _ bcast_S64x512_S64x512x256_0_1 (rowOk X) i (nodeOfFeat i) (fun a => match a with
      | ⟨0, _⟩ => by show (i 0).val = if (64 : Nat) = 1 then 0 else (i 0).val; rw [if_neg (by decide)]
      | ⟨1, _⟩ => by show (i 1).val = if (512 : Nat) = 1 then 0 else (i 1).val; rw [if_neg (by decide)])).trans
      (rowOk_one X hX _)
  rw [hm, select_one]

/-- THE FEATURES UNDER THE RANGE: gathered rows at the wrapped indices, plus the bias. -/
theorem feats_eq (T : FVec F S100000x256 .f32) (X : IVec S64x512 32) (β : FVec F S256 .f32) (hX : InRange X) :
    feats T X β
      = addf (Host.gather gather_S100000x256_S64x512x1_S64x512x256_2_0_n_n_0_2_1256 T (startIdx X)) (biasOver β) := by
  unfold feats
  rw [taken_eq T X hX]

end AnyInstance'

end Cert.KernelIdeal.Feats

end
-- ==== Proof.RefSide.lean ====
/-
  The reference's result is the pooled graph-convolution stack (`GraphConv.pooled`) of the adjacency batch, of ITS node
  features — the rows of the embedding table its index array picks, plus the bias, kept here as one array and never
  opened —, of the dense weights and of the dense bias.

  Each host contraction is read as a sum over its one contracted coordinate, each broadcast at the coordinate it copies,
  the pooled sum as the host's initial zero plus the sum over the nodes; what remains is to see that the coordinates
  those readings compose are the plain ones: graph `b`, node `i`, feature `k`.
-/
import proofs.«430194_j14388140441617_2_alg».proof.Proof.Gen.ReferenceIdeal.Read
import proofs.«430194_j14388140441617_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.GraphConv

/-! ## The composed coordinates are the plain ones -/

/-- The pooled sum at `(b, k)` runs over the second-layer entries `(b, n, k)`. -/
theorem pool_idx (b : Fin 64) (k : Fin 128) (n : Fin 512) : idx_main_v18 (ix2 b k) n = ix3 b n k :=
  funext fun a => Fin.ext (by match a with | ⟨0, _⟩ => rfl | ⟨1, _⟩ => rfl | ⟨2, _⟩ => rfl)

/-- The second layer's product at `(b, i, k)` pairs adjacency `(b, i, j)` -/
theorem l2_lhs (b : Fin 64) (i : Fin 512) (k : Fin 128) (j : Fin 512) :
    lidx_main_v16 (ix3 b i k) j = ix3 b i j :=
  funext fun a => Fin.ext (by match a with | ⟨0, _⟩ => rfl | ⟨1, _⟩ => rfl | ⟨2, _⟩ => rfl)
/-- with the dense layer's entry `(b, j, k)`. -/
theorem l2_rhs (b : Fin 64) (i : Fin 512) (k : Fin 128) (j : Fin 512) :
    ridx_main_v16 (ix3 b i k) j = ix3 b j k :=
  funext fun a => Fin.ext (by match a with | ⟨0, _⟩ => rfl | ⟨1, _⟩ => rfl | ⟨2, _⟩ => rfl)

/-- The dense layer's product at `(b, i, k)` pairs the first layer's entry `(b, i, l)` -/
theorem dense_lhs (b : Fin 64) (i : Fin 512) (k : Fin 128) (l : Fin 256) :
    lidx_main_v12 (ix3 b i k) l = ix3 b i l :=
  funext fun a => Fin.ext (by match a with | ⟨0, _⟩ => rfl | ⟨1, _⟩ => rfl | ⟨2, _⟩ => rfl)
/-- with the weight `(l, k)`, -/
theorem dense_rhs (b : Fin 64) (i : Fin 512) (k : Fin 128) (l : Fin 256) :
    ridx_main_v12 (ix3 b i k) l = ix2 l k :=
  funext fun a => Fin.ext (by match a with | ⟨0, _⟩ => rfl | ⟨1, _⟩ => rfl)
/-- and adds the bias at `k`. -/
theorem dense_bias (b : Fin 64) (i : Fin 512) (k : Fin 128) :
    idx_main_v13 (idx_main_v14 (ix3 b i k)) = ix1 k :=
  funext fun a => Fin.ext (by match a with | ⟨0, _⟩ => rfl)

/-- The first layer's product at `(b, i, l)` pairs adjacency `(b, i, j)` -/
theorem l1_lhs (b : Fin 64) (i : Fin 512) (l : Fin 256) (j : Fin 512) :
    lidx_main_v10 (ix3 b i l) j = ix3 b i j :=
  funext fun a => Fin.ext (by match a with | ⟨0, _⟩ => rfl | ⟨1, _⟩ => rfl | ⟨2, _⟩ => rfl)
/-- with the features' entry `(b, j, l)`. -/
theorem l1_rhs (b : Fin 64) (i : Fin 512) (l : Fin 256) (j : Fin 512) :
    ridx_main_v10 (ix3 b i l) j = ix3 b j l :=
  funext fun a => Fin.ext (by match a with | ⟨0, _⟩ => rfl | ⟨1, _⟩ => rfl | ⟨2, _⟩ => rfl)

/-! ## The reference's result -/

/-- The reference's last stage is the pooled stack of its own node features `val_main_v9` (gathered rows plus bias). -/
theorem result_eq (x0 : (⟨S64x512x512, .f32⟩ : BufTy).Contents (Elt Ideal)) (x1 : (⟨S64x512, .i32⟩ : BufTy).Contents (Elt Ideal))
    (x2 : (⟨S100000x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal)) :
    val_main_v20 (F := Ideal) x0 x1 x2 x3 x4 x5 = pooled x0 (val_main_v9 (F := Ideal) x1 x2 x3) x4 x5 := by
  funext y
  obtain ⟨b, k, rfl⟩ : ∃ (b : Fin 64) (k : Fin 128), y = ix2 b k := ⟨y 0, y 1, eq_ix2 y⟩
  show val_main_v20 (F := Ideal) x0 x1 x2 x3 x4 x5 (ix2 b k) = pooledAt x0 (val_main_v9 (F := Ideal) x1 x2 x3) x4 x5 b k
  simp only [val_main_v20_apply, val_main_v19_apply, val_main_cst_1_apply, val_main_v18_apply, val_main_cst_apply,
    pool_idx, val_main_v17_apply, val_main_call1_v0_apply, val_main_call1_cst_apply, val_main_v16_apply, l2_lhs, l2_rhs,
    val_main_v15_apply, val_main_v14_apply, val_main_v13_apply, dense_bias, val_main_v12_apply, dense_lhs, dense_rhs,
    val_main_v11_apply, val_main_call0_v0_apply, val_main_call0_cst_apply, val_main_v10_apply, l1_lhs, l1_rhs]
  simp only [pooledAt, pooledRow, second, dense, first, zeroWord, nodesWord, Ideal.hostDivf_def, Ideal.maximumf_def,
    Ideal.addf_def, Ideal.ofBits_def, Ideal.ofBits_zero_f32, zero_add]

end Cert.ReferenceIdeal.RefValue

end
-- ==== Proof.PreRange.lean ====
/-
  What the precondition says of the index array.

  The precondition is a conjunction of `jnp.all`s; its last conjunct is the `and`-reduce, over every node of every
  graph, of `-100000 ≤ x` and `x < 100000` on the index `x`. The precondition being 1, that reduce is 1, so both
  comparisons are 1 at every node: every index, read as a signed word, lies in `[-100000, 100000)`. (The finiteness
  conjuncts before it are not used: the two programs agree by matching sums, with no law that needs finite entries.)
-/
import proofs.«430194_j14388140441617_2_alg».proof.Proof.Gen.Pre_finite_inputs
import Idealize.ShloMosaic.Lib.ReduceAll
import Idealize.ShloMosaic.Lib.Pipeline.Value
import Idealize.ShloMosaic.Lib.ValueIdx

noncomputable section

namespace Cert.Pre_finite_inputs.Range

open Cert.Pre_finite_inputs Cert.Pre_finite_inputs.Gen Idealize.ShloMosaic Idealize.ShloMosaic.ValueIdx

instance : Subsingleton S_.Idx := ⟨fun a b => funext fun d => d.elim0⟩

theorem toInt_lo : (4294867296#32 : BitVec 32).toInt = -100000 := by decide
theorem toInt_hi : (100000#32 : BitVec 32).toInt = 100000 := by decide

/-- A scalar word broadcast over the index array reads that word. -/
theorem bcast_word (w : BitVec 32) (p : S64x512.Idx) :
    broadcastInDim S64x512 ![] bcast_S_S64x512 (constantI S_ 32 w) p = w :=
  broadcastInDim_apply _ bcast_S_S64x512 _ p ix0 (fun a => a.elim0)

/-- THE INDEX RANGE: under the precondition every index lies in `[-100000, 100000)`. -/
theorem index_range {F : FTy → Type} [FloatOps F] (a0 : FVec F S64x512x512 .f32) (X : IVec S64x512 32)
    (a2 : FVec F S100000x256 .f32) (a3 : FVec F S256 .f32) (a4 : FVec F S256x128 .f32) (a5 : FVec F S128 .f32)
    (h : fn (F := F) a0 X a2 a3 a4 a5 = fun _ => 1#1) (p : S64x512.Idx) :
    -100000 ≤ (X p).toInt ∧ (X p).toInt < 100000 := by
  have h0 := congrFun h ix0
  dsimp only [fn, fn_part1] at h0
  have h29 := (IntOp.andi_eq_one.1 h0).2
  have hp := Host.reduce_andi_all _ _ _ _ ix0 h29 p
  obtain ⟨hge, hlt⟩ := IntOp.andi_eq_one.1 hp
  have hge' := IntOp.cmpi_sge.1 hge
  have hlt' := IntOp.cmpi_slt.1 hlt
  rw [bcast_word, toInt_lo] at hge'
  rw [bcast_word, toInt_hi] at hlt'
  exact ⟨hge', hlt'⟩

end Cert.Pre_finite_inputs.Range

end
-- ==== Proof.Bridge.lean ====
/-
  The kernel's result array is the reference's.

  After the run the kernel's result is the pooled stack of the arrays as the region finds them: the adjacency batch and
  the dense weights as launched, the node features the host operations before the region wrote, the dense bias as one
  row. Under the precondition every index lies in `[-100000, 100000)`, so those features are the gathered rows at the
  wrapped indices plus the bias — the reference's own features, term for term (the same wrap, the same gather, the
  same broadcast of the bias) —, and the one-row bias read at `(0, k)` is the bias at `k`. So the kernel's result is the
  pooled stack of the reference's features, which is the reference's result.
-/
import proofs.«430194_j14388140441617_2_alg».proof.Proof.KernelArray
import proofs.«430194_j14388140441617_2_alg».proof.Proof.KernelFeatures
import proofs.«430194_j14388140441617_2_alg».proof.Proof.RefSide
import proofs.«430194_j14388140441617_2_alg».proof.Proof.PreRange

noncomputable section

namespace Cert.Proof.Bridge

open Idealize.ShloMosaic Idealize.ShloMosaic.TcCoe Idealize.ShloMosaic.ValueIdx Idealize.SL.Sem Cert.GraphConv
open Cert.KernelIdeal Cert.KernelIdeal.Gen

/-- Under the index range the kernel's features are the reference's: the same rows at the same wrapped indices, plus the
    same bias. -/
theorem feats_ref (T : FVec Ideal S100000x256 .f32) (X : IVec S64x512 32) (β : FVec Ideal S256 .f32)
    (hX : Cert.KernelIdeal.Feats.InRange X) :
    Cert.KernelIdeal.Feats.feats (F := Ideal) T X β = Cert.ReferenceIdeal.Read.val_main_v9 (F := Ideal) X T β :=
  (Cert.KernelIdeal.Feats.feats_eq T X β hX).trans rfl

variable (m : (ℓ : Loc nD τ sig) → Buf (Elt Ideal) ℓ)

/-- THE KERNEL'S RESULT under the precondition: the pooled stack of the launched adjacency, the reference's features of
    the launched indices, table and bias, the launched dense weights and dense bias. -/
theorem kernel_result (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1) :
    Cert.KernelIdeal.Whole.result m c
      = pooled (m ((c : Thread nD τ).loc main_arg0))
          (Cert.ReferenceIdeal.Read.val_main_v9 (F := Ideal) (m ((c : Thread nD τ).loc main_arg1))
            (m ((c : Thread nD τ).loc main_arg2)) (m ((c : Thread nD τ).loc main_arg3)))
          (m ((c : Thread nD τ).loc main_arg4)) (m ((c : Thread nD τ).loc main_arg5)) := by
  have hA : (Cert.KernelIdeal.Whole.arrA m c : ShA.Idx → EReal) = m ((c : Thread nD τ).loc main_arg0) := V_main_arg0 m c
  have hW : (Cert.KernelIdeal.Whole.arrW m c : ShW.Idx → EReal) = m ((c : Thread nD τ).loc main_arg4) := V_main_arg4 m c
  have hH : (Cert.KernelIdeal.Whole.arrH m c : ShH.Idx → EReal)
      = Cert.ReferenceIdeal.Read.val_main_v9 (F := Ideal) (m ((c : Thread nD τ).loc main_arg1))
          (m ((c : Thread nD τ).loc main_arg2)) (m ((c : Thread nD τ).loc main_arg3)) :=
    (Cert.KernelIdeal.Feats.feats_found m c).trans
      (feats_ref _ _ _ fun p => Cert.Pre_finite_inputs.Range.index_range _ _ _ _ _ _ hpre p)
  have hB : (fun q : ShB.Idx => Cert.KernelIdeal.Whole.arrB m c (ix2 0 (q 0))) = m ((c : Thread nD τ).loc main_arg5) :=
    funext fun q => by
      refine (congrFun (Cert.KernelIdeal.Feats.bias_found m c) (ix2 0 (q 0))).trans ?_
      refine (shapeCast_addUnit_apply ![128] _ shapeCasts_S128_S1x128 (ix2 0 (q 0))).trans ?_
      exact congrArg _ (funext fun a => by match a with | ⟨0, _⟩ => rfl)
  exact congr (congr (congr (congrArg pooled hA) hH) hW) hB

end Cert.Proof.Bridge

end
-- ==== Proof.lean ====
/-
  Two stacked graph-convolution layers with a dense layer between them and a mean over the nodes, for a batch of 64
  graphs on 512 nodes: the Pallas kernel (one grid point per eight graphs, each graph's adjacency block reused by both
  layers) against the batched jnp reference, over the extended reals.

  Both programs first look each node's entity up in a table of 100000 rows. The reference's lookup wraps a negative
  index by the table's length and gathers; the kernel's lookup wraps the same way but REPLACES a row whose wrapped index
  falls outside the table by a fill word, so the two differ when an index is out of range. The precondition therefore
  asks, besides finite float inputs, that every index lie in `[-100000, 100000)` — the indices' own domain; under it
  the fill never fires and the two lookups are one (Proof/KernelFeatures.lean, Proof/PreRange.lean).
  From there both sides are the same function, `GraphConv.pooled` (Proof/Spec.lean): per graph
  `max (A · h) 0`, then `· W + b`, then `max (A · _) 0`, then the node sum divided by 512, every product a sum over one
  contracted coordinate. The reference's batched contractions are read at an index (Proof/RefSide.lean); the kernel's
  eight per-graph rows per grid point are that function on the block's slices (Proof/KernelRow.lean,
  Proof/KernelBlock.lean), and the eight blocks tile the result (Proof/KernelArray.lean). No law of the extended reals
  is used, so finiteness is never opened; the two frames of the kernel are the generated ones, the reference's frame is
  its run with the result dropped, and the idealization rewrote nothing.
-/
import proofs.«430194_j14388140441617_2_alg».proof.Defs
import proofs.«430194_j14388140441617_2_alg».proof.Proof.Gen.Kernel
import proofs.«430194_j14388140441617_2_alg».proof.Proof.Gen.Kernel.Frame
import proofs.«430194_j14388140441617_2_alg».proof.Proof.Gen.KernelIdeal
import proofs.«430194_j14388140441617_2_alg».proof.Proof.Gen.KernelIdeal.Frame
import proofs.«430194_j14388140441617_2_alg».proof.Proof.Gen.KernelIdeal.Value
import proofs.«430194_j14388140441617_2_alg».proof.Proof.Gen.ReferenceIdeal
import proofs.«430194_j14388140441617_2_alg».proof.Proof.Gen.ReferenceIdeal.Run
import proofs.«430194_j14388140441617_2_alg».proof.Proof.Gen.ReferenceIdeal.Read
import proofs.«430194_j14388140441617_2_alg».proof.Proof.Gen.Pre_finite_inputs
import proofs.«430194_j14388140441617_2_alg».proof.Proof.Bridge
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end at the pooled stack of the launched arrays: the kernel
    block by block (its run with the result array named, then the whole-array form), the reference by its run read at
    an index; the two meet through the precondition's index range. -/
theorem algebraic : Cert.algebraic_KernelIdeal_ReferenceIdeal := by
  intro m ρ m' ρ' hpre hagree
  refine ⟨fun c => Cert.KernelIdeal.Whole.result m c, ?_, ?_⟩
  · exact (θ_run Cert.KernelIdeal.defs _ _).mono
      (fun r h c => ⟨(h c).1.trans (Cert.KernelIdeal.Whole.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, Cert.ReferenceIdeal.RefValue.result_eq, (hagree c).1, (hagree c).2.1,
      (hagree c).2.2.1, (hagree c).2.2.2.1, (hagree c).2.2.2.2.1, (hagree c).2.2.2.2.2]
    exact (Cert.Proof.Bridge.kernel_result m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
